-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16x128 : Shape := ⟨3, ![2048, 16, 128]⟩
abbrev S512x128 : Shape := ⟨2, ![512, 128]⟩
abbrev S512 : Shape := ⟨1, ![512]⟩
abbrev S128x512 : Shape := ⟨2, ![128, 512]⟩
abbrev S128 : Shape := ⟨1, ![128]⟩
abbrev S_ : Shape := ⟨0, ![]⟩

class Facts : Prop where
  bcast_S_S2048x16x128 : S_.BroadcastsInDim S2048x16x128 (![] : Fin 0 → Fin S2048x16x128.rank)
  reducesTo_S2048x16x128_S_d0_1_2 : S2048x16x128.ReducesTo [0, 1, 2] S_
  h_S_ : 0 < S_.numel
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S2048x16x128 .f32) (main_arg1 : FVec F S512x128 .f32) (main_arg2 : FVec F S512 .f32) (main_arg3 : FVec F S128x512 .f32) (main_arg4 : FVec F S128 .f32) : IVec S_ 1 :=
  let main_v0 : FVec F S2048x16x128 .f32 := Host.absf main_arg0
  let main_cst : FVec F S_ .f32 := constant S_ .f32 0x7F800000#32
  let main_v1 : FVec F S2048x16x128 .f32 := broadcastInDim S2048x16x128 ![] bcast_S_S2048x16x128 main_cst
  let main_v2 : IVec S2048x16x128 1 := cmpf .olt main_v0 main_v1
  let main_c : IVec S_ 1 := constantI S_ 1 1#1
  let main_v3 : IVec S_ 1 := (fun x v => Host.reduce IntOp.andi x v reducesTo_S2048x16x128_S_d0_1_2 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_v13 main_v16
-- ==== Kernel.lean ====
abbrev S2048x16x128 : Shape := ⟨3, ![2048, 16, 128]⟩
abbrev S512x128 : Shape := ⟨2, ![512, 128]⟩
abbrev S512 : Shape := ⟨1, ![512]⟩
abbrev S128x512 : Shape := ⟨2, ![128, 512]⟩
abbrev S128 : Shape := ⟨1, ![128]⟩
abbrev S1x512 : Shape := ⟨2, ![1, 512]⟩
abbrev S1x128 : Shape := ⟨2, ![1, 128]⟩
abbrev S16x16x128 : Shape := ⟨3, ![16, 16, 128]⟩
abbrev S16x16x1x128 : Shape := ⟨4, ![16, 16, 1, 128]⟩
abbrev S16x1x16x128 : Shape := ⟨4, ![16, 1, 16, 128]⟩
abbrev S16x16x16x128 : Shape := ⟨4, ![16, 16, 16, 128]⟩
abbrev S4096x128 : Shape := ⟨2, ![4096, 128]⟩
abbrev S4096x512 : Shape := ⟨2, ![4096, 512]⟩
abbrev S16x16x16x512 : Shape := ⟨4, ![16, 16, 16, 512]⟩
abbrev S16x16x512 : Shape := ⟨3, ![16, 16, 512]⟩
abbrev S256x512 : Shape := ⟨2, ![256, 512]⟩
abbrev S256x128 : Shape := ⟨2, ![256, 128]⟩

abbrev nBuf : Space → Nat
  | .hbm => 8
  | .vmem => 8
  | .smem => 0
  | _ => 0

abbrev bufTy : (tb : Table) → Fin (tcTables nBuf tb) → BufTy
  | .hbm, ⟨0, _⟩ => ⟨S2048x16x128, .f32⟩
  | .hbm, ⟨1, _⟩ => ⟨S512x128, .f32⟩
  | .hbm, ⟨2, _⟩ => ⟨S512, .f32⟩
  | .hbm, ⟨3, _⟩ => ⟨S128x512, .f32⟩
  | .hbm, ⟨4, _⟩ => ⟨S128, .f32⟩
  | .hbm, ⟨5, _⟩ => ⟨S1x512, .f32⟩
  | .hbm, ⟨6, _⟩ => ⟨S1x128, .f32⟩
  | .hbm, ⟨7, _⟩ => ⟨S2048x16x128, .f32⟩
  | .local _ .vmem, ⟨0, _⟩ => ⟨S16x16x128, .f32⟩
  | .local _ .vmem, ⟨1, _⟩ => ⟨S16x16x128, .f32⟩
  | .local _ .vmem, ⟨2, _⟩ => ⟨S512x128, .f32⟩
  | .local _ .vmem, ⟨3, _⟩ => ⟨S1x512, .f32⟩
  | .local _ .vmem, ⟨4, _⟩ => ⟨S128x512, .f32⟩
  | .local _ .vmem, ⟨5, _⟩ => ⟨S1x128, .f32⟩
  | .local _ .vmem, ⟨6, _⟩ => ⟨S16x16x128, .f32⟩
  | .local _ .vmem, ⟨7, _⟩ => ⟨S16x16x128, .f32⟩
  | _, _ => ⟨S2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S512_S1x512 : S512.ShapeCasts S1x512
  shapeCasts_S128_S1x128 : S128.ShapeCasts S1x128
  inb_S16x16x128_S16x16x128_0_0_0 : ∀ a, (![0, 0, 0] : Fin 3 → Nat) a + S16x16x128.size a ≤ S16x16x128.size a
  h_S16x16x128 : 0 < S16x16x128.numel
  shapeCasts_S16x16x128_S16x16x1x128 : S16x16x128.ShapeCasts S16x16x1x128
  shapeCasts_S16x16x128_S16x1x16x128 : S16x16x128.ShapeCasts S16x1x16x128
  broadcasts_S16x16x1x128_S16x16x16x128 : S16x16x1x128.Broadcasts S16x16x16x128
  broadcasts_S16x1x16x128_S16x16x16x128 : S16x1x16x128.Broadcasts S16x16x16x128
  bitsLt_bf16_f32 : FTy.bits .bf16 < FTy.bits .f32
  shapeCasts_S16x16x16x128_S4096x128 : S16x16x16x128.ShapeCasts S4096x128
  inb_S512x128_S512x128_0_0 : ∀ a, (![0, 0] : Fin 2 → Nat) a + S512x128.size a ≤ S512x128.size a
  h_S512x128 : 0 < S512x128.numel
  transposes_S512x128_p1_0_S128x512 : S512x128.Transposes [1, 0] S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  shapeCasts_S4096x512_S16x16x16x512 : S4096x512.ShapeCasts S16x16x16x512
  reduces_S16x16x16x512_S16x16x512 : S16x16x16x512.Reduces [1] S16x16x512
  shapeCasts_S16x16x512_S256x512 : S16x16x512.ShapeCasts S256x512
  inb_S128x512_S128x512_0_0 : ∀ a, (![0, 0] : Fin 2 → Nat) a + S128x512.size a ≤ S128x512.size a
  h_S128x512 : 0 < S128x512.numel
  transposes_S128x512_p1_0_S512x128 : S128x512.Transposes [1, 0] S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  shapeCasts_S256x128_S16x16x128 : S256x128.ShapeCasts S16x16x128
  dot_S4096x128_S128x512_S4096x512_1_0_0_1_n_n_wf : DotDims.WF S4096x128 S128x512 S4096x512 [1] [0] [0] [1] [] []
  dot_S256x512_S512x128_S256x128_1_0_0_1_n_n_wf : DotDims.WF S256x512 S512x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x16x128.size a ≤ S2048x16x128.size a
  hwx0_0 : ∀ i : grid0.Coords, EltTy.bits .f32 = 32 ∨ (Rect.block (s := S2048x16x128) S16x16x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x16x128.size a ≤ S2048x16x128.size a
  hwx0_5 : ∀ i : grid0.Coords, EltTy.bits .f32 = 32 ∨ (Rect.block (s := S2048x16x128) S16x16x128.size (cc0_transform_5 i) (hinb0_5 i)).WholeWords (EltTy.packing .f32)

variable [Facts₀]

def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf

abbrev win0_0 : Pipeline.Window sig grid0 :=
  Pipeline.Window.ofSpec (Memref.whole main_arg0) S16x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S16x16x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x16x128 : Shape := ⟨3, ![2048, 16, 128]⟩
abbrev S512x128 : Shape := ⟨2, ![512, 128]⟩
abbrev S512 : Shape := ⟨1, ![512]⟩
abbrev S128x512 : Shape := ⟨2, ![128, 512]⟩
abbrev S128 : Shape := ⟨1, ![128]⟩
abbrev S2048x16x1x128 : Shape := ⟨4, ![2048, 16, 1, 128]⟩
abbrev S2048x1x16x128 : Shape := ⟨4, ![2048, 1, 16, 128]⟩
abbrev S2048x16x16x128 : Shape := ⟨4, ![2048, 16, 16, 128]⟩
abbrev S2048x16x16x512 : Shape := ⟨4, ![2048, 16, 16, 512]⟩
abbrev S1x1x1x512 : Shape := ⟨4, ![1, 1, 1, 512]⟩
abbrev S_ : Shape := ⟨0, ![]⟩
abbrev S1x1x1x128 : Shape := ⟨4, ![1, 1, 1, 128]⟩

abbrev nBuf : Space → Nat
  | .hbm => 23
  | .vmem => 0
  | .smem => 0
  | _ => 0

abbrev bufTy : (tb : Table) → Fin (tcTables nBuf tb) → BufTy
  | .hbm, ⟨0, _⟩ => ⟨S2048x16x128, .f32⟩
  | .hbm, ⟨1, _⟩ => ⟨S512x128, .f32⟩
  | .hbm, ⟨2, _⟩ => ⟨S512, .f32⟩
  | .hbm, ⟨3, _⟩ => ⟨S128x512, .f32⟩
  | .hbm, ⟨4, _⟩ => ⟨S128, .f32⟩
  | .hbm, ⟨5, _⟩ => ⟨S2048x16x1x128, .f32⟩
  | .hbm, ⟨6, _⟩ => ⟨S2048x1x16x128, .f32⟩
  | .hbm, ⟨7, _⟩ => ⟨S2048x16x16x128, .f32⟩
  | .hbm, ⟨8, _⟩ => ⟨S2048x16x16x128, .f32⟩
  | .hbm, ⟨9, _⟩ => ⟨S2048x16x16x128, .f32⟩
  | .hbm, ⟨10, _⟩ => ⟨S2048x16x16x512, .f32⟩
  | .hbm, ⟨11, _⟩ => ⟨S1x1x1x512, .f32⟩
  | .hbm, ⟨12, _⟩ => ⟨S2048x16x16x512, .f32⟩
  | .hbm, ⟨13, _⟩ => ⟨S2048x16x16x512, .f32⟩
  | .hbm, ⟨14, _⟩ => ⟨S_, .f32⟩
  | .hbm, ⟨15, _⟩ => ⟨S2048x16x16x512, .f32⟩
  | .hbm, ⟨16, _⟩ => ⟨S2048x16x16x512, .f32⟩
  | .hbm, ⟨17, _⟩ => ⟨S2048x16x16x128, .f32⟩
  | .hbm, ⟨18, _⟩ => ⟨S1x1x1x128, .f32⟩
  | .hbm, ⟨19, _⟩ => ⟨S2048x16x16x128, .f32⟩
  | .hbm, ⟨20, _⟩ => ⟨S2048x16x16x128, .f32⟩
  | .hbm, ⟨21, _⟩ => ⟨S_, .f32⟩
  | .hbm, ⟨22, _⟩ => ⟨S2048x16x128, .f32⟩
  | _, _ => ⟨S2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_cst : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S2048x16x128_S2048x16x1x128_0_1_3 : S2048x16x128.BroadcastsInDim S2048x16x1x128 (![0, 1, 3] : Fin 3 → Fin S2048x16x1x128.rank)
  bcast_S2048x16x128_S2048x1x16x128_0_2_3 : S2048x16x128.BroadcastsInDim S2048x1x16x128 (![0, 2, 3] : Fin 3 → Fin S2048x1x16x128.rank)
  bcast_S2048x16x1x128_S2048x16x16x128_0_1_2_3 : S2048x16x1x128.BroadcastsInDim S2048x16x16x128 (![0, 1, 2, 3] : Fin 4 → Fin S2048x16x16x128.rank)
  bcast_S2048x1x16x128_S2048x16x16x128_0_1_2_3 : S2048x1x16x128.BroadcastsInDim S2048x16x16x128 (![0, 1, 2, 3] : Fin 4 → Fin S2048x16x16x128.rank)
  bcast_S512_S1x1x1x512_3 : S512.BroadcastsInDim S1x1x1x512 (![3] : Fin 1 → Fin S1x1x1x512.rank)
  bcast_S1x1x1x512_S2048x16x16x512_0_1_2_3 : S1x1x1x512.BroadcastsInDim S2048x16x16x512 (![0, 1, 2, 3] : Fin 4 → Fin S2048x16x16x512.rank)
  bcast_S_S2048x16x16x512 : S_.BroadcastsInDim S2048x16x16x512 (![] : Fin 0 → Fin S2048x16x16x512.rank)
  bcast_S128_S1x1x1x128_3 : S128.BroadcastsInDim S1x1x1x128 (![3] : Fin 1 → Fin S1x1x1x128.rank)
  bcast_S1x1x1x128_S2048x16x16x128_0_1_2_3 : S1x1x1x128.BroadcastsInDim S2048x16x16x128 (![0, 1, 2, 3] : Fin 4 → Fin S2048x16x16x128.rank)
  reducesTo_S2048x16x16x128_S2048x16x128_d1 : S2048x16x16x128.ReducesTo [1] S2048x16x128
  h_S_ : 0 < S_.numel
  dot_S2048x16x16x128_S512x128_S2048x16x16x512_3_1_012_0_n_n_wf : DotDims.WF S2048x16x16x128 S512x128 S2048x16x16x512 [3] [1] [0, 1, 2] [0] [] []
  dot_S2048x16x16x512_S128x512_S2048x16x16x128_3_1_012_0_n_n_wf : DotDims.WF S2048x16x16x512 S128x512 S2048x16x16x128 [3] [1] [0, 1, 2] [0] [] []

variable [Facts₀]

def dot_S2048x16x16x128_S512x128_S2048x16x16x512_3_1_012_0_n_n : DotDims S2048x16x16x128 S512x128 S2048x16x16x512 where
  lhsContracting := [3]
  rhsContracting := [1]
  lhsNonContracting := [0, 1, 2]
  rhsNonContracting := [0]
  lhsBatch := []
  rhsBatch := []
  wf := dot_S2048x16x16x128_S512x128_S2048x16x16x512_3_1_012_0_n_n_wf
def dot_S2048x16x16x512_S128x512_S2048x16x16x128_3_1_012_0_n_n : DotDims S2048x16x16x512 S128x512 S2048x16x16x128 where
  lhsContracting := [3]
  rhsContracting := [1]
  lhsNonContracting := [0, 1, 2]
  rhsNonContracting := [0]
  lhsBatch := []
  rhsBatch := []
  wf := dot_S2048x16x16x512_S128x512_S2048x16x16x128_3_1_012_0_n_n_wf

class Facts : Prop extends Facts₀ where

variable [Facts]
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.BlockPairMlp.lean ====
/-
  The kernel body's value on one block of sixteen batch entries, read at an entry.

  The body works on a block x0 of shape [16, 16, 128] (sixteen batch entries tb, sixteen attributes, 128 features)
  and on the whole weight arrays. Its value is cut into four stages:

    pairs   [4096, 128]  row ((tb·16 + i)·16 + j) holds the pair x0[tb,i,·] · x0[tb,j,·];
    hidden  [4096, 512]  max (pairs · W1ᵀ + b1, 0): the activation of each pair at each hidden unit;
    summed  [256, 512]   row (tb·16 + j) holds the sum over i of hidden's rows ((tb·16 + i)·16 + j);
    block   [16, 16, 128]  summed · W2ᵀ + 16 · b2, laid back as (tb, j, d).

  Every reshape keeps the row-major position, so a row number is the mixed-radix number of the coordinates it
  stands for; the two transposes exchange the coordinates of a weight; the narrowing to bf16 is the identity on
  the extended reals; a matrix product into a zero accumulator is the plain sum over the contracted index.
-/
import proofs.«173878_j9079560863790_1_alg».proof.Proof.Gen.KernelIdeal.Skeleton
import proofs.«173878_j9079560863790_1_alg».proof.Proof.LibPlainDot
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-! ## The four stages -/

/-- The pairs, one per row. -/
def pairs (x0 : FVec Ideal S16x16x128 .f32) : FVec Ideal S4096x128 .bf16 :=
  shapeCast S4096x128
    (truncf .bf16
      (mulf (broadcastTo S16x16x16x128 (shapeCast S16x16x1x128 x0 shapeCasts_S16x16x128_S16x16x1x128) broadcasts_S16x16x1x128_S16x16x16x128)
        (broadcastTo S16x16x16x128 (shapeCast S16x1x16x128 x0 shapeCasts_S16x16x128_S16x1x16x128) broadcasts_S16x1x16x128_S16x16x16x128))
      bitsLt_bf16_f32)
    shapeCasts_S16x16x16x128_S4096x128

/-- The hidden activations, one row per pair. -/
def hidden (x0 : FVec Ideal S16x16x128 .f32) (w1 : FVec Ideal S512x128 .f32) (c1 : FVec Ideal S1x512 .f32) : FVec Ideal S4096x512 .f32 :=
  maximumf
    (addf
      (matmul dot_S4096x128_S128x512_S4096x512_1_0_0_1_n_n none (pairs x0)
        (transpose S128x512 [1, 0] (truncf .bf16 w1 bitsLt_bf16_f32) transposes_S512x128_p1_0_S128x512)
        (constant S4096x512 .f32 0x00000000#32))
      (broadcastTo S4096x512 (shapeCast S1x512 c1 shapeCasts_S1x512_S1x512) broadcasts_S1x512_S4096x512))
    (broadcast S4096x512 (Scalar.ofBits .f32 0x00000000#32))

/-- The activations summed over the first attribute, one row per (batch entry, second attribute). -/
def summed (x0 : FVec Ideal S16x16x128 .f32) (w1 : FVec Ideal S512x128 .f32) (c1 : FVec Ideal S1x512 .f32) : FVec Ideal S256x512 .bf16 :=
  truncf .bf16
    (shapeCast S256x512
      (multiReduction .add [1] S16x16x512 (shapeCast S16x16x16x512 (hidden x0 w1 c1) shapeCasts_S4096x512_S16x16x16x512)
        0x00000000#32 reduces_S16x16x16x512_S16x16x512 (.inl rfl) rfl)
      shapeCasts_S16x16x512_S256x512)
    bitsLt_bf16_f32

/-- The body's value IS the second layer on the summed activations, laid back as a block. -/
theorem pay_split (x0 : FVec Ideal S16x16x128 .f32) (w1 : FVec Ideal S512x128 .f32) (c1 : FVec Ideal S1x512 .f32)
    (w2 : FVec Ideal S128x512 .f32) (c2 : FVec Ideal S1x128 .f32) :
    k0_pay1 (F := Ideal) x0 w1 c1 w2 c2
      = shapeCast S16x16x128
          (addf
            (matmul dot_S256x512_S512x128_S256x128_1_0_0_1_n_n none (summed x0 w1 c1)
              (transpose S512x128 [1, 0] (truncf .bf16 w2 bitsLt_bf16_f32) transposes_S128x512_p1_0_S512x128)
              (constant S256x128 .f32 0x00000000#32))
            (broadcastTo S256x128
              (mulf (broadcast S1x128 (Scalar.ofBits .f32 0x41800000#32)) (shapeCast S1x128 c2 shapeCasts_S1x128_S1x128))
              broadcasts_S1x128_S256x128))
          shapeCasts_S256x128_S16x16x128 := rfl

/-! ## Row numbers -/

/-- The row of the pair (i, j) of batch entry tb: the mixed-radix number of (tb, i, j). -/
def pairRow (tb i j : Fin 16) : Fin 4096 :=
  ⟨(tb.val * 16 + i.val) * 16 + j.val, by have := tb.isLt; have := i.isLt; have := j.isLt; omega⟩

/-- The row of (tb, j). -/
def outRow (tb j : Fin 16) : Fin 256 := ⟨tb.val * 16 + j.val, by have := tb.isLt; have := j.isLt; omega⟩

/-! ## Constants and weights -/

/-- The pattern of 16.0 denotes the real number 16. -/
theorem ofBits_16 : Ideal.ofBits .f32 0x41800000#32 = ((16 : ℝ) : EReal) := by
  simp [Ideal.ofBits, Ideal.ieee, -EReal.coe_mul]; norm_num

/-- Both matrix products are plain: rows from the left operand, columns from the right, one contracted axis. -/
theorem plain1 : Cert.PlainDot.Plain dot_S4096x128_S128x512_S4096x512_1_0_0_1_n_n := ⟨rfl, rfl, rfl, rfl, rfl, rfl⟩
theorem plain2 : Cert.PlainDot.Plain dot_S256x512_S512x128_S256x128_1_0_0_1_n_n := ⟨rfl, rfl, rfl, rfl, rfl, rfl⟩

/-- The first layer's weight, narrowed and transposed, at (e, h) is W1[h, e]. -/
theorem w1T_apply (w1 : FVec Ideal S512x128 .f32) (e : Fin 128) (h : Fin 512) :
    transpose S128x512 [1, 0] (truncf .bf16 w1 bitsLt_bf16_f32) transposes_S512x128_p1_0_S128x512 (ix2 e h) = w1 (ix2 h e) :=
  transpose_apply [1, 0] (truncf .bf16 w1 bitsLt_bf16_f32) transposes_S512x128_p1_0_S128x512 (ix2 e h) (ix2 h e)
    (fun b => match b with | ⟨0, _⟩ => rfl | ⟨1, _⟩ => rfl)

/-- The second layer's weight, narrowed and transposed, at (h, d) is W2[d, h]. -/
theorem w2T_apply (w2 : FVec Ideal S128x512 .f32) (h : Fin 512) (d : Fin 128) :
    transpose S512x128 [1, 0] (truncf .bf16 w2 bitsLt_bf16_f32) transposes_S128x512_p1_0_S512x128 (ix2 h d) = w2 (ix2 d h) :=
  transpose_apply [1, 0] (truncf .bf16 w2 bitsLt_bf16_f32) transposes_S128x512_p1_0_S512x128 (ix2 h d) (ix2 d h)
    (fun b => match b with | ⟨0, _⟩ => rfl | ⟨1, _⟩ => rfl)

/-! ## The stages at an entry -/

/-- Row (tb, i, j) of the pairs at feature e is x0[tb,i,e] · x0[tb,j,e]. -/
theorem pairs_apply (x0 : FVec Ideal S16x16x128 .f32) (tb i j : Fin 16) (e : Fin 128) :
    pairs x0 (ix2 (pairRow tb i j) e) = x0 (ix3 tb i e) * x0 (ix3 tb j e) := by
  unfold pairs
  refine (shapeCast_apply _ shapeCasts_S16x16x16x128_S4096x128 (ix2 (pairRow tb i j) e) (ix4 tb i j e) ?_).trans ?_
  · rw [Shape.rowMajor_val_four, Shape.rowMajor_val_two]
    show ((tb.val * 16 + i.val) * 16 + j.val) * 128 + e.val = (pairRow tb i j).val * 128 + e.val
    rfl
  · refine (truncf_apply (ψ := .bf16) _ bitsLt_bf16_f32 _).trans ?_
    refine (mulf_apply _ _ _).trans ?_
    refine congrArg₂ (fun a b : EReal => a * b) ?_ ?_
    · refine (broadcastTo_apply _ broadcasts_S16x16x1x128_S16x16x16x128 (ix4 tb i j e) (ix4 tb i (0 : Fin 1) e) ?_).trans ?_
      · intro a
        match a with
        | ⟨0, _⟩ => show tb.val = if (16 : Nat) = 1 then 0 else tb.val; rw [if_neg (by decide)]
        | ⟨1, _⟩ => show i.val = if (16 : Nat) = 1 then 0 else i.val; rw [if_neg (by decide)]
        | ⟨2, _⟩ => show 0 = if (1 : Nat) = 1 then 0 else j.val; rw [if_pos rfl]
        | ⟨3, _⟩ => show e.val = if (128 : Nat) = 1 then 0 else e.val; rw [if_neg (by decide)]
      · refine shapeCast_apply x0 shapeCasts_S16x16x128_S16x16x1x128 (ix4 tb i (0 : Fin 1) e) (ix3 tb i e) ?_
        rw [Shape.rowMajor_val_three, Shape.rowMajor_val_four]
        show (tb.val * 16 + i.val) * 128 + e.val = ((tb.val * 16 + i.val) * 1 + 0) * 128 + e.val
        omega
    · refine (broadcastTo_apply _ broadcasts_S16x1x16x128_S16x16x16x128 (ix4 tb i j e) (ix4 tb (0 : Fin 1) j e) ?_).trans ?_
      · intro a
        match a with
        | ⟨0, _⟩ => show tb.val = if (16 : Nat) = 1 then 0 else tb.val; rw [if_neg (by decide)]
        | ⟨1, _⟩ => show 0 = if (1 : Nat) = 1 then 0 else i.val; rw [if_pos rfl]
        | ⟨2, _⟩ => show j.val = if (16 : Nat) = 1 then 0 else j.val; rw [if_neg (by decide)]
        | ⟨3, _⟩ => show e.val = if (128 : Nat) = 1 then 0 else e.val; rw [if_neg (by decide)]
      · refine shapeCast_apply x0 shapeCasts_S16x16x128_S16x1x16x128 (ix4 tb (0 : Fin 1) j e) (ix3 tb j e) ?_
        rw [Shape.rowMajor_val_three, Shape.rowMajor_val_four]
        show (tb.val * 16 + j.val) * 128 + e.val = ((tb.val * 1 + 0) * 16 + j.val) * 128 + e.val
        omega

/-- The activation of the pair (i, j) of batch entry tb at hidden unit h. -/
theorem hidden_apply (x0 : FVec Ideal S16x16x128 .f32) (w1 : FVec Ideal S512x128 .f32) (c1 : FVec Ideal S1x512 .f32)
    (tb i j : Fin 16) (h : Fin 512) :
    hidden x0 w1 c1 (ix2 (pairRow tb i j) h)
      = max ((∑ e : Fin 128, (x0 (ix3 tb i e) * x0 (ix3 tb j e)) * w1 (ix2 h e)) + c1 (ix2 (0 : Fin 1) h)) 0 := by
  unfold hidden
  refine (maximumf_apply _ _ _).trans ?_
  refine congrArg₂ (fun a b : EReal => max a b) ?_ ?_
  · refine (addf_apply _ _ _).trans ?_
    refine congrArg₂ (fun a b : EReal => a + b) ?_ ?_
    · refine (Cert.PlainDot.matmul_zero_apply plain1 rfl rfl none _ _ (pairRow tb i j) h).trans ?_
      exact Finset.sum_congr rfl fun e _ => by rw [pairs_apply, w1T_apply]
    · refine (broadcastTo_apply _ broadcasts_S1x512_S4096x512 (ix2 (pairRow tb i j) h) (ix2 (0 : Fin 1) h) ?_).trans ?_
      · intro a
        match a with
        | ⟨0, _⟩ => show 0 = if (1 : Nat) = 1 then 0 else (pairRow tb i j).val; rw [if_pos rfl]
        | ⟨1, _⟩ => show h.val = if (512 : Nat) = 1 then 0 else h.val; rw [if_neg (by decide)]
      · exact congrFun (shapeCast_self c1 shapeCasts_S1x512_S1x512) _
  · show Ideal.ofBits .f32 0x00000000#32 = 0
    exact Ideal.ofBits_zero_f32

/-- Row (tb, j) of the summed activations at hidden unit h is the sum over i of the pairs' activations. -/
theorem summed_apply (x0 : FVec Ideal S16x16x128 .f32) (w1 : FVec Ideal S512x128 .f32) (c1 : FVec Ideal S1x512 .f32)
    (tb j : Fin 16) (h : Fin 512) :
    summed x0 w1 c1 (ix2 (outRow tb j) h) = ∑ i : Fin 16, hidden x0 w1 c1 (ix2 (pairRow tb i j) h) := by
  unfold summed
  refine (truncf_apply (ψ := .bf16) _ bitsLt_bf16_f32 _).trans ?_
  refine (shapeCast_apply _ shapeCasts_S16x16x512_S256x512 (ix2 (outRow tb j) h) (ix3 tb j h) ?_).trans ?_
  · rw [Shape.rowMajor_val_three, Shape.rowMajor_val_two]
    show (tb.val * 16 + j.val) * 512 + h.val = (outRow tb j).val * 512 + h.val
    rfl
  · refine (Ideal.multiReduction_add_single (φ := .f32) _ 0x00000000#32 reduces_S16x16x16x512_S16x16x512 (.inl rfl) rfl (ix3 tb j h)).trans ?_
    refine Finset.sum_congr rfl fun i _ => ?_
    refine shapeCast_apply _ shapeCasts_S4096x512_S16x16x16x512 _ (ix2 (pairRow tb i j) h) ?_
    rw [Shape.rowMajor_val_two, Shape.rowMajor_val_four]
    show (pairRow tb i j).val * 512 + h.val = ((tb.val * 16 + i.val) * 16 + j.val) * 512 + h.val
    rfl

/-! ## The block at an entry -/

/-- The network on one block: entry (tb, j, d) from the block x0, the weights, and the biases as one-row arrays. -/
def blockAt (x0 : FVec Ideal S16x16x128 .f32) (w1 : FVec Ideal S512x128 .f32) (c1 : FVec Ideal S1x512 .f32)
    (w2 : FVec Ideal S128x512 .f32) (c2 : FVec Ideal S1x128 .f32) (tb j : Fin 16) (d : Fin 128) : EReal :=
  (∑ h : Fin 512,
      (∑ i : Fin 16, max ((∑ e : Fin 128, (x0 (ix3 tb i e) * x0 (ix3 tb j e)) * w1 (ix2 h e)) + c1 (ix2 (0 : Fin 1) h)) 0)
        * w2 (ix2 d h))
    + ((16 : ℝ) : EReal) * c2 (ix2 (0 : Fin 1) d)

/-- The body's value at (tb, j, d). -/
theorem pay_apply (x0 : FVec Ideal S16x16x128 .f32) (w1 : FVec Ideal S512x128 .f32) (c1 : FVec Ideal S1x512 .f32)
    (w2 : FVec Ideal S128x512 .f32) (c2 : FVec Ideal S1x128 .f32) (tb j : Fin 16) (d : Fin 128) :
    k0_pay1 (F := Ideal) x0 w1 c1 w2 c2 (ix3 tb j d) = blockAt x0 w1 c1 w2 c2 tb j d := by
  rw [pay_split]
  unfold blockAt
  refine (shapeCast_apply _ shapeCasts_S256x128_S16x16x128 (ix3 tb j d) (ix2 (outRow tb j) d) ?_).trans ?_
  · rw [Shape.rowMajor_val_two, Shape.rowMajor_val_three]
    show (outRow tb j).val * 128 + d.val = (tb.val * 16 + j.val) * 128 + d.val
    rfl
  · refine (addf_apply _ _ _).trans ?_
    refine congrArg₂ (fun a b : EReal => a + b) ?_ ?_
    · refine (Cert.PlainDot.matmul_zero_apply plain2 rfl rfl none _ _ (outRow tb j) d).trans ?_
      refine Finset.sum_congr rfl fun h _ => ?_
      rw [summed_apply, w2T_apply]
      exact congrArg (· * w2 (ix2 d h)) (Finset.sum_congr rfl fun i _ => hidden_apply x0 w1 c1 tb i j h)
    · refine (broadcastTo_apply _ broadcasts_S1x128_S256x128 (ix2 (outRow tb j) d) (ix2 (0 : Fin 1) d) ?_).trans ?_
      · intro a
        match a with
        | ⟨0, _⟩ => show 0 = if (1 : Nat) = 1 then 0 else (outRow tb j).val; rw [if_pos rfl]
        | ⟨1, _⟩ => show d.val = if (128 : Nat) = 1 then 0 else d.val; rw [if_neg (by decide)]
      · refine (mulf_apply _ _ _).trans ?_
        refine congrArg₂ (fun a b : EReal => a * b) ?_ ?_
        · show Ideal.ofBits .f32 0x41800000#32 = _
          exact ofBits_16
        · exact congrFun (shapeCast_self c2 shapeCasts_S1x128_S1x128) _

end Cert.KernelIdeal.Block

end
-- ==== Proof.PairMlp.lean ====
/-
  The network both programs compute, as ONE function of the five argument arrays, and the law that joins the
  two arrangements of it.

  For a batch entry b and two attributes i, j the PAIR (i, j) is the elementwise product x[b,i,·] · x[b,j,·];
  a shared two-layer perceptron is applied to every pair and the results are summed over the first attribute i.
  The hidden activation of a pair at hidden unit h is

      act b i j h  =  max ( Σ_e (x[b,i,e] · x[b,j,e]) · W1[h,e]  +  b1[h] ,  0 ).

  The reference applies the second layer to every pair and then sums over i:

      ref b j d  =  0 + Σ_i ( Σ_h act b i j h · W2[d,h]  +  b2[d] ),

  the kernel sums the activations over i first and applies the second layer once:

      out b j d  =  Σ_h ( Σ_i act b i j h ) · W2[d,h]  +  16 · b2[d].

  The two are equal because the second layer is linear: Σ_i Σ_h a_ih · w_h = Σ_h (Σ_i a_ih) · w_h (the sums
  exchanged, the common factor w_h taken out of the sum over i), and the bias added once per i, sixteen times in
  all, is 16 · b2[d]. Taking a factor out of a sum is a law of the reals, not of the extended reals (at an
  infinite term the sign of w_h would matter), so the law is stated for arrays whose entries are real numbers:
  then every activation is a real number too, both sides are the coercion of one real expression, and the
  equality is proved there.
-/
import Idealize.ShloMosaic.Lib.ValueIdx
import Idealize.ShloMosaic.PureOps.Ideal.Laws

noncomputable section

namespace Cert.PairMlp

open Idealize.ShloMosaic Idealize.ShloMosaic.ValueIdx

/-! ## Real numbers inside the extended reals -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion is monotone, so it commutes with the maximum. -/
theorem coe_max (a b : ℝ) : ((max a b : ℝ) : EReal) = max (a : EReal) (b : EReal) :=
  EReal.coe_strictMono.monotone.map_max

/-- The linearity of the second layer, over the reals: summing over i after the layer (the bias added once per
    i) is applying the layer once to the sum over i, with the bias taken as many times as there are i. -/
theorem layer_sum_real {ι κ : Type*} [Fintype ι] [Fintype κ] (a : ι → κ → ℝ) (w : κ → ℝ) (c : ℝ) :
    ∑ i, ((∑ h, a i h * w h) + c) = (∑ h, (∑ i, a i h) * w h) + (Fintype.card ι : ℝ) * c := by
  rw [Finset.sum_add_distrib, Finset.sum_comm]
  simp only [Finset.sum_mul, Finset.sum_const, Finset.card_univ, nsmul_eq_mul]

/-- The same law for real numbers read as extended reals. -/
theorem layer_sum {ι κ : Type*} [Fintype ι] [Fintype κ] (a : ι → κ → ℝ) (w : κ → ℝ) (c : ℝ) :
    (0 : EReal) + ∑ i, ((∑ h, (a i h : EReal) * (w h : EReal)) + (c : EReal))
      = (∑ h, (∑ i, (a i h : EReal)) * (w h : EReal)) + ((Fintype.card ι : ℝ) : EReal) * (c : EReal) := by
  rw [zero_add]
  simp only [← EReal.coe_mul, ← coe_sum, ← EReal.coe_add]
  exact congrArg _ (layer_sum_real a w c)

/-! ## The network over the argument arrays -/

abbrev XIdx := (⟨3, ![2048, 16, 128]⟩ : Shape).Idx
abbrev W1Idx := (⟨2, ![512, 128]⟩ : Shape).Idx
abbrev B1Idx := (⟨1, ![512]⟩ : Shape).Idx
abbrev W2Idx := (⟨2, ![128, 512]⟩ : Shape).Idx
abbrev B2Idx := (⟨1, ![128]⟩ : Shape).Idx

/-- The hidden activation of the pair (i, j) of batch entry b at hidden unit h. -/
def act (x : XIdx → EReal) (W1 : W1Idx → EReal) (b1 : B1Idx → EReal) (b : Fin 2048) (i j : Fin 16) (h : Fin 512) : EReal :=
  max ((∑ e : Fin 128, (x (ix3 b i e) * x (ix3 b j e)) * W1 (ix2 h e)) + b1 (ix1 h)) 0

/-- The reference's arrangement: the second layer on every pair, then the sum over the first attribute. -/
def refAt (x : XIdx → EReal) (W1 : W1Idx → EReal) (b1 : B1Idx → EReal) (W2 : W2Idx → EReal) (b2 : B2Idx → EReal)
    (b : Fin 2048) (j : Fin 16) (d : Fin 128) : EReal :=
  0 + ∑ i : Fin 16, ((∑ h : Fin 512, act x W1 b1 b i j h * W2 (ix2 d h)) + b2 (ix1 d))

/-- The kernel's arrangement: the activations summed over the first attribute, then the second layer once, the
    bias sixteen times. -/
def outAt (x : XIdx → EReal) (W1 : W1Idx → EReal) (b1 : B1Idx → EReal) (W2 : W2Idx → EReal) (b2 : B2Idx → EReal)
    (b : Fin 2048) (j : Fin 16) (d : Fin 128) : EReal :=
  (∑ h : Fin 512, (∑ i : Fin 16, act x W1 b1 b i j h) * W2 (ix2 d h)) + ((16 : ℝ) : EReal) * b2 (ix1 d)

/-- The result array: entry (b, j, d) is the kernel's arrangement there. -/
def out (x : XIdx → EReal) (W1 : W1Idx → EReal) (b1 : B1Idx → EReal) (W2 : W2Idx → EReal) (b2 : B2Idx → EReal) :
    XIdx → EReal :=
  fun o => outAt x W1 b1 W2 b2 (o 0) (o 1) (o 2)

/-- The activation over real arrays. -/
def actR (x : XIdx → ℝ) (W1 : W1Idx → ℝ) (b1 : B1Idx → ℝ) (b : Fin 2048) (i j : Fin 16) (h : Fin 512) : ℝ :=
  max ((∑ e : Fin 128, (x (ix3 b i e) * x (ix3 b j e)) * W1 (ix2 h e)) + b1 (ix1 h)) 0

/-- Over arrays of real numbers every activation is a real number. -/
theorem act_coe (x : XIdx → ℝ) (W1 : W1Idx → ℝ) (b1 : B1Idx → ℝ) (b : Fin 2048) (i j : Fin 16) (h : Fin 512) :
    act (fun a => (x a : EReal)) (fun a => (W1 a : EReal)) (fun a => (b1 a : EReal)) b i j h
      = ((actR x W1 b1 b i j h : ℝ) : EReal) := by
  unfold act actR
  rw [coe_max, EReal.coe_zero, EReal.coe_add, coe_sum]
  simp only [EReal.coe_mul]

/-- THE LAW: over arrays of real numbers the two arrangements agree at every entry. -/
theorem refAt_eq_outAt (x : XIdx → ℝ) (W1 : W1Idx → ℝ) (b1 : B1Idx → ℝ) (W2 : W2Idx → ℝ) (b2 : B2Idx → ℝ)
    (b : Fin 2048) (j : Fin 16) (d : Fin 128) :
    refAt (fun a => (x a : EReal)) (fun a => (W1 a : EReal)) (fun a => (b1 a : EReal)) (fun a => (W2 a : EReal))
        (fun a => (b2 a : EReal)) b j d
      = outAt (fun a => (x a : EReal)) (fun a => (W1 a : EReal)) (fun a => (b1 a : EReal)) (fun a => (W2 a : EReal))
        (fun a => (b2 a : EReal)) b j d := by
  unfold refAt outAt
  simp only [act_coe]
  have key := layer_sum (fun (i : Fin 16) (h : Fin 512) => actR x W1 b1 b i j h) (fun h => W2 (ix2 d h)) (b2 (ix1 d))
  rw [Fintype.card_fin] at key
  have c16 : ((16 : ℕ) : ℝ) = 16 := by norm_num
  rw [c16] at key
  exact key

end Cert.PairMlp

end
-- ==== Proof.KernelPairMlp.lean ====
/-
  From the blocks to the whole result array.

  The grid has 128 points; point t works on batch entries 16t … 16t + 15. Its input block of x is those sixteen
  entries, the weight windows are the whole weight arrays at every point, and the two bias windows are the biases
  reshaped to one-row arrays before the launch. So the block the body computes at point t is, entry by entry, the
  network's result (PairMlp.out) at batch entry 16t + tb: what point t writes back is block t of that one array.
  The 128 blocks tile the 2048 batch entries (entry b lies in block ⌊b / 16⌋), so after the run the result array IS
  PairMlp.out of the argument arrays.
-/
import proofs.«173878_j9079560863790_1_alg».proof.Proof.Gen.KernelIdeal.Value
import proofs.«173878_j9079560863790_1_alg».proof.Proof.BlockPairMlp
import proofs.«173878_j9079560863790_1_alg».proof.Proof.PairMlp
import Idealize.ShloMosaic.Lib.Pipeline.Value
import Idealize.ShloMosaic.Lib.StableHlo.Run

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## Which block each window holds at a point -/

/-- The index maps over the grid: the windows of x and of the result move with the point along the batch axis;
    every other window stays at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The block of x at point t: entry (tb, i, e) is x[16t + tb, i, e]. -/
theorem xblock_apply (c : Dev nD) (t : Fin cfg0.N) (y : S16x16x128.Idx) (k : S2048x16x128.Idx)
    (hk0 : (k 0).val = 16 * t.val + (y 0).val) (hk1 : (k 1).val = (y 1).val) (hk2 : (k 2).val = (y 2).val) :
    (iblk m c 0 t : Vec Ideal S16x16x128 .f32) y = (m ((c : Thread nD τ).loc main_arg0) : S2048x16x128.Idx → Elt Ideal .f32) k := by
  obtain ⟨e0, e1, e2, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 16 + 1 * (y 0).val = (k 0).val; rw [e0, hk0]; omega
  | ⟨1, _⟩ => show win0_0.index t 1 * 16 + 1 * (y 1).val = (k 1).val; rw [e1, hk1]; omega
  | ⟨2, _⟩ => show win0_0.index t 2 * 128 + 1 * (y 2).val = (k 2).val; rw [e2, hk2]; omega

/-- The first layer's weight window is the whole array at every point. -/
theorem w1block_eq (c : Dev nD) (t : Fin cfg0.N) :
    (iblk m c 1 t : Vec Ideal S512x128 .f32) = (m ((c : Thread nD τ).loc main_arg1) : S512x128.Idx → Elt Ideal .f32) := by
  obtain ⟨-, -, -, e0, e1, -⟩ := idx_facts t
  funext y
  unfold iblk
  rw [View.read_apply]
  show V m c main_arg1 _ = m (c.tc.loc main_arg1) _
  rw [V_main_arg1]
  congr 1
  funext a
  apply Fin.ext
  match a with
  | ⟨0, _⟩ => show win0_1.index t 0 * 512 + 1 * (y 0).val = (y 0).val; rw [e0]; omega
  | ⟨1, _⟩ => show win0_1.index t 1 * 128 + 1 * (y 1).val = (y 1).val; rw [e1]; omega

/-- The second layer's weight window likewise. -/
theorem w2block_eq (c : Dev nD) (t : Fin cfg0.N) :
    (iblk m c 3 t : Vec Ideal S128x512 .f32) = (m ((c : Thread nD τ).loc main_arg3) : S128x512.Idx → Elt Ideal .f32) := by
  obtain ⟨-, -, -, -, -, -, -, e0, e1, -⟩ := idx_facts t
  funext y
  unfold iblk
  rw [View.read_apply]
  show V m c main_arg3 _ = m (c.tc.loc main_arg3) _
  rw [V_main_arg3]
  congr 1
  funext a
  apply Fin.ext
  match a with
  | ⟨0, _⟩ => show win0_3.index t 0 * 128 + 1 * (y 0).val = (y 0).val; rw [e0]; omega
  | ⟨1, _⟩ => show win0_3.index t 1 * 512 + 1 * (y 1).val = (y 1).val; rw [e1]; omega

/-- Before the launch the first bias is reshaped to one row. -/
theorem V_b1row (c : Dev nD) :
    (V m c main_v0 : S1x512.Idx → Elt Ideal .f32) = shapeCast S1x512 (m ((c : Thread nD τ).loc main_arg2)) shapeCasts_S512_S1x512 := by
  dsimp only [Gen.V, Gen.hostOps0]; after_results; rfl

/-- And the second bias. -/
theorem V_b2row (c : Dev nD) :
    (V m c main_v1 : S1x128.Idx → Elt Ideal .f32) = shapeCast S1x128 (m ((c : Thread nD τ).loc main_arg4)) shapeCasts_S128_S1x128 := by
  dsimp only [Gen.V, Gen.hostOps0]; after_results; rfl

/-- The first bias window at (0, h) is b1[h]. -/
theorem b1block_apply (c : Dev nD) (t : Fin cfg0.N) (h : Fin 512) :
    (iblk m c 2 t : Vec Ideal S1x512 .f32) (ix2 (0 : Fin 1) h) = (m ((c : Thread nD τ).loc main_arg2) : S512.Idx → Elt Ideal .f32) (ix1 h) := by
  obtain ⟨-, -, -, -, -, e0, e1, -⟩ := idx_facts t
  unfold iblk
  rw [View.read_apply]
  show V m c main_v0 _ = _
  rw [V_b1row]
  refine shapeCast_apply _ shapeCasts_S512_S1x512 _ (ix1 h) ?_
  rw [Shape.rowMajor_val_one, Shape.rowMajor_val_two]
  show h.val = (win0_2.index t 0 * 1 + 1 * 0) * 512 + (win0_2.index t 1 * 512 + 1 * h.val)
  rw [e0, e1]; omega

/-- The second bias window at (0, d) is b2[d]. -/
theorem b2block_apply (c : Dev nD) (t : Fin cfg0.N) (d : Fin 128) :
    (iblk m c 4 t : Vec Ideal S1x128 .f32) (ix2 (0 : Fin 1) d) = (m ((c : Thread nD τ).loc main_arg4) : S128.Idx → Elt Ideal .f32) (ix1 d) := by
  obtain ⟨-, -, -, -, -, -, -, -, -, e0, e1, -⟩ := idx_facts t
  unfold iblk
  rw [View.read_apply]
  show V m c main_v1 _ = _
  rw [V_b2row]
  refine shapeCast_apply _ shapeCasts_S128_S1x128 _ (ix1 d) ?_
  rw [Shape.rowMajor_val_one, Shape.rowMajor_val_two]
  show d.val = (win0_4.index t 0 * 1 + 1 * 0) * 128 + (win0_4.index t 1 * 128 + 1 * d.val)
  rw [e0, e1]; omega

/-! ## One entry of a block is one entry of the network's result -/

/-- Over ANY block x0 that holds rows 16T … 16T + 15 of X, and bias rows that hold b1 and b2: the body's value at
    the block entry y is the network's result at the array index o that y stands for. -/
theorem entry_eq (X : FVec Ideal S2048x16x128 .f32) (W1 : FVec Ideal S512x128 .f32) (b1 : FVec Ideal S512 .f32)
    (W2 : FVec Ideal S128x512 .f32) (b2 : FVec Ideal S128 .f32)
    (x0 : FVec Ideal S16x16x128 .f32) (c1 : FVec Ideal S1x512 .f32) (c2 : FVec Ideal S1x128 .f32) (T : Nat)
    (hx : ∀ (y : S16x16x128.Idx) (k : S2048x16x128.Idx), (k 0).val = 16 * T + (y 0).val → (k 1).val = (y 1).val →
      (k 2).val = (y 2).val → x0 y = X k)
    (hc1 : ∀ h : Fin 512, c1 (ix2 (0 : Fin 1) h) = b1 (ix1 h))
    (hc2 : ∀ d : Fin 128, c2 (ix2 (0 : Fin 1) d) = b2 (ix1 d))
    (y : S16x16x128.Idx) (o : S2048x16x128.Idx)
    (ho0 : (o 0).val = 16 * T + (y 0).val) (ho1 : (o 1).val = (y 1).val) (ho2 : (o 2).val = (y 2).val) :
    k0_pay1 (F := Ideal) x0 W1 c1 W2 c2 y = Cert.PairMlp.out X W1 b1 W2 b2 o := by
  obtain ⟨tb, j, d, rfl⟩ : ∃ (tb j : Fin 16) (d : Fin 128), y = ix3 tb j d := ⟨y 0, y 1, y 2, eq_ix3 y⟩
  obtain ⟨ob, oj, od, rfl⟩ : ∃ (ob : Fin 2048) (oj : Fin 16) (od : Fin 128), o = ix3 ob oj od := ⟨o 0, o 1, o 2, eq_ix3 o⟩
  obtain rfl : oj = j := Fin.ext ho1
  obtain rfl : od = d := Fin.ext ho2
  have hxi : ∀ (i : Fin 16) (e : Fin 128), x0 (ix3 tb i e) = X (ix3 ob i e) := fun i e => hx _ _ ho0 rfl rfl
  rw [Cert.KernelIdeal.Block.pay_apply]
  show Cert.KernelIdeal.Block.blockAt x0 W1 c1 W2 c2 tb oj od = Cert.PairMlp.outAt X W1 b1 W2 b2 ob oj od
  unfold Cert.KernelIdeal.Block.blockAt Cert.PairMlp.outAt Cert.PairMlp.act
  simp only [hxi, hc1, hc2]

/-! ## What each point writes back, and the final array -/

/-- The result array the run ends with: the network of the argument arrays. -/
abbrev result (c : Dev nD) : S2048x16x128.Idx → Elt Ideal .f32 :=
  Cert.PairMlp.out (m ((c : Thread nD τ).loc main_arg0)) (m ((c : Thread nD τ).loc main_arg1))
    (m ((c : Thread nD τ).loc main_arg2)) (m ((c : Thread nD τ).loc main_arg3)) (m ((c : Thread nD τ).loc main_arg4))

/-- WHAT POINT t WRITES BACK is block t of the network's result. -/
theorem flushed_eq (c : Dev nD) (t : Fin cfg0.N) :
    (dats m 0 c).flushed 5 t = ((cfg0.win 5).blk t).view.read (Elt Ideal) (result m c) := by
  obtain ⟨-, -, -, -, -, -, -, -, -, -, -, e0, e1, e2⟩ := idx_facts t
  rw [Value.flushed5]
  unfold out0_5
  rw [View.canon_unit_zero hz3]
  simp only [View.ld_unit_zero (S := S16x16x128) hz3, View.ld_unit_zero (S := S512x128) hz2,
    View.ld_unit_zero (S := S1x512) hz2, View.ld_unit_zero (S := S128x512) hz2, View.ld_unit_zero (S := S1x128) hz2]
  funext y
  rw [w1block_eq m c t, w2block_eq m c t]
  show k0_pay1 (F := Ideal) (iblk m c 0 t) (m ((c : Thread nD τ).loc main_arg1)) (iblk m c 2 t)
      (m ((c : Thread nD τ).loc main_arg3)) (iblk m c 4 t) y = result m c (((cfg0.win 5).blk t).view.emb y)
  refine entry_eq (m ((c : Thread nD τ).loc main_arg0)) (m ((c : Thread nD τ).loc main_arg1))
    (m ((c : Thread nD τ).loc main_arg2)) (m ((c : Thread nD τ).loc main_arg3)) (m ((c : Thread nD τ).loc main_arg4))
    (iblk m c 0 t) (iblk m c 2 t) (iblk m c 4 t) t.val (fun y' k h0 h1 h2 => xblock_apply m c t y' k h0 h1 h2)
    (fun h => b1block_apply m c t h) (fun d => b2block_apply m c t d) y (((cfg0.win 5).blk t).view.emb y) ?_ ?_ ?_
  · show win0_5.index t 0 * 16 + 1 * (y 0).val = 16 * t.val + (y 0).val; rw [e0]; omega
  · show win0_5.index t 1 * 16 + 1 * (y 1).val = (y 1).val; rw [e1]; omega
  · show win0_5.index t 2 * 128 + 1 * (y 2).val = (y 2).val; rw [e2]; omega

/-- An index of the array is in point t's block iff each coordinate is in the block's range on its axis. -/
theorem mem_blk (t : Fin cfg0.N) (i : S2048x16x128.Idx) :
    i ∈ ((cfg0.win 5).blk t).view.set ↔ ∀ a : Fin 3, win0_5.index t a * S16x16x128.size a ≤ (i a).val
      ∧ (i a).val < win0_5.index t a * S16x16x128.size a + S16x16x128.size a := by
  show i ∈ ((View.whole main_v2).slice (win0_5.rect t)).set ↔ _
  rw [View.set_slice_whole, Rect.mem_set_unit]
  exact Iff.rfl

/-- THE ARRAY after the run: batch entry b lies in the block of point ⌊b / 16⌋, so every index is covered. -/
theorem final (c : Dev nD) : (dats m 0 c).arrAt 5 cfg0.N = result m c :=
  (dats m 0 c).arrAt_eq_of_cover 5 (result m c) (fun t _ => flushed_eq m c t) fun i => by
    have hi0 : (i 0).val < 2048 := (i 0).isLt
    have hi1 : (i 1).val < 16 := (i 1).isLt
    have hi2 : (i 2).val < 128 := (i 2).isLt
    have hN : cfg0.N = 128 := N_0
    have ht : (i 0).val / 16 < cfg0.N := by rw [hN]; omega
    obtain ⟨-, -, -, -, -, -, -, -, -, -, -, e0, e1, e2⟩ := idx_facts ⟨(i 0).val / 16, ht⟩
    refine ⟨⟨(i 0).val / 16, ht⟩, flush0_5 _, ?_⟩
    rw [mem_blk]
    intro a
    match a with
    | ⟨0, _⟩ =>
      show win0_5.index ⟨(i 0).val / 16, ht⟩ 0 * 16 ≤ (i 0).val ∧ (i 0).val < win0_5.index ⟨(i 0).val / 16, ht⟩ 0 * 16 + 16
      rw [e0]; show (i 0).val / 16 * 16 ≤ (i 0).val ∧ (i 0).val < (i 0).val / 16 * 16 + 16; omega
    | ⟨1, _⟩ =>
      show win0_5.index ⟨(i 0).val / 16, ht⟩ 1 * 16 ≤ (i 1).val ∧ (i 1).val < win0_5.index ⟨(i 0).val / 16, ht⟩ 1 * 16 + 16
      rw [e1]; omega
    | ⟨2, _⟩ =>
      show win0_5.index ⟨(i 0).val / 16, ht⟩ 2 * 128 ≤ (i 2).val ∧ (i 2).val < win0_5.index ⟨(i 0).val / 16, ht⟩ 2 * 128 + 128
      rw [e2]; omega

/-! ## The run, read -/

/-- Every weakly fair execution of the kernel's program terminates with the result array at the network of the
    argument arrays, and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefPairMlp.lean ====
/-
  The reference's result is the reference's arrangement of the network (PairMlp.refAt), entry by entry.

  Read one operation at a time: the two broadcasts of x give, at (b, i, j, e), the entries x[b,i,e] and x[b,j,e];
  their product is contracted with W1 over e; b1[h] is added; the maximum with 0 is taken; the result is contracted
  with W2 over h; b2[d] is added; and the sum over the first attribute i runs from the initial value 0.
-/
import proofs.«173878_j9079560863790_1_alg».proof.Proof.Gen.ReferenceIdeal.Read
import proofs.«173878_j9079560863790_1_alg».proof.Proof.PairMlp

noncomputable section

namespace Cert.ReferenceIdeal.RefValue

open Cert.ReferenceIdeal Cert.ReferenceIdeal.Read Idealize.ShloMosaic Idealize.ShloMosaic.ValueIdx Cert.PairMlp

/-- The last stage of the reference, at the output index o = (b, j, d), is refAt b j d. -/
theorem result_eq (x : FVec Ideal S2048x16x128 .f32) (W1 : FVec Ideal S512x128 .f32) (b1 : FVec Ideal S512 .f32)
    (W2 : FVec Ideal S128x512 .f32) (b2 : FVec Ideal S128 .f32) :
    val_main_v14 (F := Ideal) x W1 b1 W2 b2 = fun o => refAt x W1 b1 W2 b2 (o 0) (o 1) (o 2) := by
  funext o
  -- the composed index functions, as coordinates: the left factor reads x at (b, i, e), the right at (b, j, e)
  have ex : ∀ (i : Fin 16) (h : Fin 512) (e : Fin 128),
      idx_main_v0 (idx_main_v2 (lidx_main_v5 (lidx_main_v10 (idx_main_v14 o i) h) e)) = ix3 (o 0) i e := fun i h e =>
    funext fun a => Fin.ext (by match a with | ⟨0, _⟩ => rfl | ⟨1, _⟩ => rfl | ⟨2, _⟩ => rfl)
  have ey : ∀ (i : Fin 16) (h : Fin 512) (e : Fin 128),
      idx_main_v1 (idx_main_v3 (lidx_main_v5 (lidx_main_v10 (idx_main_v14 o i) h) e)) = ix3 (o 0) (o 1) e := fun i h e =>
    funext fun a => Fin.ext (by match a with | ⟨0, _⟩ => rfl | ⟨1, _⟩ => rfl | ⟨2, _⟩ => rfl)
  -- the first layer's weight at (h, e) and bias at h
  have ew1 : ∀ (i : Fin 16) (h : Fin 512) (e : Fin 128),
      ridx_main_v5 (lidx_main_v10 (idx_main_v14 o i) h) e = ix2 h e := fun i h e =>
    funext fun a => Fin.ext (by match a with | ⟨0, _⟩ => rfl | ⟨1, _⟩ => rfl)
  have eb1 : ∀ (i : Fin 16) (h : Fin 512),
      idx_main_v6 (idx_main_v7 (lidx_main_v10 (idx_main_v14 o i) h)) = ix1 h := fun i h =>
    funext fun a => Fin.ext (by match a with | ⟨0, _⟩ => rfl)
  -- the second layer's weight at (d, h) and bias at d
  have ew2 : ∀ (i : Fin 16) (h : Fin 512), ridx_main_v10 (idx_main_v14 o i) h = ix2 (o 2) h := fun i h =>
    funext fun a => Fin.ext (by match a with | ⟨0, _⟩ => rfl | ⟨1, _⟩ => rfl)
  have eb2 : ∀ (i : Fin 16), idx_main_v11 (idx_main_v12 (idx_main_v14 o i)) = ix1 (o 2) := fun i =>
    funext fun a => Fin.ext (by match a with | ⟨0, _⟩ => rfl)
  rw [val_main_v14_apply]
  simp only [val_main_v13_apply, val_main_v10_apply, val_main_v12_apply, val_main_v11_apply, val_main_v9_apply,
    val_main_v8_apply, val_main_v5_apply, val_main_v7_apply, val_main_v6_apply, val_main_v4_apply, val_main_v2_apply,
    val_main_v3_apply, val_main_v0_apply, val_main_v1_apply, val_main_call0_v0_apply, val_main_call0_cst_apply,
    val_main_cst_apply, ex, ey, ew1, eb1, ew2, eb2, Ideal.mulf_def, Ideal.addf_def, Ideal.maximumf_def,
    Ideal.ofBits_def, Ideal.ofBits_zero_f32]
  rfl

end Cert.ReferenceIdeal.RefValue

end
-- ==== Proof.FiniteArgs.lean ====
/-
  What the precondition gives: every entry of the five argument arrays is a real number, and hence the two
  arrangements of the network agree on them.

  The precondition is the conjunction, over the five arrays, of "all entries satisfy |v| < +∞". On the extended
  reals |v| is max v (−v), which is +∞ exactly at v = ±∞, so each conjunct says that every entry of its array is
  a real number. For arrays of real numbers the reference's arrangement of the network equals the kernel's
  (PairMlp.refAt_eq_outAt).
-/
import proofs.«173878_j9079560863790_1_alg».proof.Pre_finite_inputs
import proofs.«173878_j9079560863790_1_alg».proof.Proof.PairMlp
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic

variable [Facts]

instance : Subsingleton S_.Idx := ⟨fun a b => funext fun d => d.elim0⟩

/-- The pattern of +∞ denotes the top of the extended reals. -/
theorem top_pat : Ideal.ofBits .f32 0x7F800000#32 = (⊤ : EReal) := by simp [Ideal.ofBits, Ideal.ieee]

/-- A one-bit word made from a truth value is 1 exactly when the value is true. -/
theorem ofBool_one {b : Bool} : BitVec.ofBool b = 1#1 ↔ b = true := by cases b <;> decide

/-- An extended real whose absolute value is below +∞ is a real number. -/
theorem real_of_abs_lt (v : EReal) (hv : Ideal.cmp .olt (max v (-v)) (Ideal.ofBits .f32 0x7F800000#32) = 1#1) :
    ∃ r : ℝ, v = (r : EReal) := by
  rw [top_pat] at hv
  have hlt : max v (-v) < ⊤ := of_decide_eq_true (ofBool_one.1 hv)
  induction v using EReal.rec with
  | bot => simp at hlt
  | top => simp at hlt
  | coe r => exact ⟨r, rfl⟩

/-- One conjunct of the precondition: every entry of that array is a real number. -/
theorem entries_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
      (constantI S_ 1 1#1) hr hu ValueIdx.ix0 = 1#1) :
    ∃ xr : s.Idx → ℝ, x = fun a => ((xr a : ℝ) : EReal) := by
  have hi : ∀ i : s.Idx, ∃ r : ℝ, x i = (r : EReal) := fun i =>
    real_of_abs_lt (x i) (Host.reduce_andi_all _ _ hr hu ValueIdx.ix0 e i)
  choose xr hxr using hi
  exact ⟨xr, funext hxr⟩

/-- Under the precondition the reference's arrangement of the network, entry by entry, is the kernel's. -/
theorem ref_eq_out (x : FVec Ideal S2048x16x128 .f32) (W1 : FVec Ideal S512x128 .f32) (b1 : FVec Ideal S512 .f32)
    (W2 : FVec Ideal S128x512 .f32) (b2 : FVec Ideal S128 .f32)
    (h : fn (F := Ideal) x W1 b1 W2 b2 = fun _ => 1#1) :
    (fun o : S2048x16x128.Idx => Cert.PairMlp.refAt x W1 b1 W2 b2 (o 0) (o 1) (o 2)) = Cert.PairMlp.out x W1 b1 W2 b2 := by
  have h0 := congrFun h ValueIdx.ix0
  dsimp only [fn, fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  obtain ⟨xr, rfl⟩ := entries_real x _ _ _ e0
  obtain ⟨w1r, rfl⟩ := entries_real W1 _ _ _ e1
  obtain ⟨b1r, rfl⟩ := entries_real b1 _ _ _ e2
  obtain ⟨w2r, rfl⟩ := entries_real W2 _ _ _ e3
  obtain ⟨b2r, rfl⟩ := entries_real b2 _ _ _ e4
  funext o
  exact Cert.PairMlp.refAt_eq_outAt xr w1r b1r w2r b2r (o 0) (o 1) (o 2)

end Cert.Pre_finite_inputs.Finite

end
-- ==== Proof.lean ====
/-
  The kernel computes, for each batch entry b and attribute j,

      out[b,j,d] = Σ_h ( Σ_i act b i j h ) · W2[d,h] + 16 · b2[d],
      act b i j h = max ( Σ_e (x[b,i,e] · x[b,j,e]) · W1[h,e] + b1[h], 0 ),

  sixteen batch entries per grid point; the reference computes Σ_i ( Σ_h act b i j h · W2[d,h] + b2[d] ) over the
  whole arrays. On the extended reals the narrowing to bf16 is the identity and both matrix products are exact
  sums, so the kernel's result array is the first expression of the argument arrays (Proof/BlockPairMlp.lean for
  one block, Proof/KernelPairMlp.lean for the array) and the reference's is the second (Proof/RefPairMlp.lean).
  The two agree because the second layer is linear — the sums over i and h exchange, W2[d,h] leaves the sum over i,
  and the bias is added sixteen times — which holds for real entries (Proof/PairMlp.lean); the precondition says
  that every entry of the five arguments is real (Proof/FiniteArgs.lean).

  The frames of the two kernel programs are the generated ones; the reference's frame is its generated run with
  the result forgotten; the idealization rewrote nothing, so there is nothing to preserve.
-/
import proofs.«173878_j9079560863790_1_alg».proof.Defs
import proofs.«173878_j9079560863790_1_alg».proof.Proof.Gen.Kernel
import proofs.«173878_j9079560863790_1_alg».proof.Proof.Gen.Kernel.Skeleton
import proofs.«173878_j9079560863790_1_alg».proof.Proof.Gen.Kernel.Launch
import proofs.«173878_j9079560863790_1_alg».proof.Proof.Gen.Kernel.Points
import proofs.«173878_j9079560863790_1_alg».proof.Proof.Gen.Kernel.Frame
import proofs.«173878_j9079560863790_1_alg».proof.Proof.Gen.KernelIdeal
import proofs.«173878_j9079560863790_1_alg».proof.Proof.Gen.KernelIdeal.Skeleton
import proofs.«173878_j9079560863790_1_alg».proof.Proof.Gen.KernelIdeal.Launch
import proofs.«173878_j9079560863790_1_alg».proof.Proof.Gen.KernelIdeal.Points
import proofs.«173878_j9079560863790_1_alg».proof.Proof.Gen.KernelIdeal.Frame
import proofs.«173878_j9079560863790_1_alg».proof.Proof.Gen.KernelIdeal.Value
import proofs.«173878_j9079560863790_1_alg».proof.Proof.Gen.ReferenceIdeal
import proofs.«173878_j9079560863790_1_alg».proof.Proof.Gen.ReferenceIdeal.Run
import proofs.«173878_j9079560863790_1_alg».proof.Proof.Gen.ReferenceIdeal.Read
import proofs.«173878_j9079560863790_1_alg».proof.Proof.Gen.Pre_finite_inputs
import proofs.«173878_j9079560863790_1_alg».proof.Proof.KernelPairMlp
import proofs.«173878_j9079560863790_1_alg».proof.Proof.RefPairMlp
import proofs.«173878_j9079560863790_1_alg».proof.Proof.FiniteArgs
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the same result array: the kernel's is
    the network in the kernel's arrangement, the reference's the network in the reference's arrangement, and on
    arguments with real entries the two arrangements are one function. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq,
    (hagree c).1, (hagree c).2.1, (hagree c).2.2.1, (hagree c).2.2.2.1, (hagree c).2.2.2.2]
  exact Cert.Pre_finite_inputs.Finite.ref_eq_out _ _ _ _ _ (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
